-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2048x512 : Shape := ⟨2, ![2048, 512]⟩
abbrev S512 : Shape := ⟨1, ![512]⟩
abbrev S2048 : Shape := ⟨1, ![2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8192x512 .f32) (main_arg1 : FVec F S2048x512 .f32) (main_arg2 : FVec F S512 .f32) (main_arg3 : FVec F S2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8192x512 : Shape := ⟨2, ![8192, 512]⟩
abbrev S2048x512 : Shape := ⟨2, ![2048, 512]⟩
abbrev S512 : Shape := ⟨1, ![512]⟩
abbrev S2048 : Shape := ⟨1, ![2048]⟩
abbrev S_ : Shape := ⟨0, ![]⟩
abbrev S1x1 : Shape := ⟨2, ![1, 1]⟩
abbrev S1 : Shape := ⟨1, ![1]⟩
abbrev S1x2048 : Shape := ⟨2, ![1, 2048]⟩
abbrev S1x512 : Shape := ⟨2, ![1, 512]⟩
abbrev S512x2048 : Shape := ⟨2, ![512, 2048]⟩
abbrev S8192x2048 : Shape := ⟨2, ![8192, 2048]⟩
abbrev S512x512 : Shape := ⟨2, ![512, 512]⟩
abbrev S512x1 : Shape := ⟨2, ![512, 1]⟩

abbrev nBuf : Space → Nat
  | .hbm => 35
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S512, .f32⟩
  | .hbm, ⟨3, _⟩ => ⟨S2048, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S2048x512, .f32⟩
  | .hbm, ⟨25, _⟩ => ⟨S1x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S1x512, .f32⟩
  | .hbm, ⟨32, _⟩ => ⟨S512x2048, .f32⟩
  | .hbm, ⟨33, _⟩ => ⟨S512x2048, .bf16⟩
  | .hbm, ⟨34, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x512, .f32⟩
  | .local _ .vmem, ⟨4, _⟩ => ⟨S1x2048, .f32⟩
  | .local _ .vmem, ⟨5, _⟩ => ⟨S1x2048, .f32⟩
  | .local _ .vmem, ⟨6, _⟩ => ⟨S1x1, .f32⟩
  | .local _ .vmem, ⟨7, _⟩ => ⟨S512x2048, .f32⟩
  | .local _ .vmem, ⟨8, _⟩ => ⟨S512x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S512_S_d0 : S512.ReducesTo [0] S_
  h_S_ : 0 < S_.numel
  shapeCasts_S_S1x1 : S_.ShapeCasts S1x1
  reducesTo_S2048_S_d0 : S2048.ReducesTo [0] S_
  bcast_S_S1 : S_.BroadcastsInDim S1 (![] : Fin 0 → Fin S1.rank)
  bcast_S1_S2048_0 : S1.BroadcastsInDim S2048 (![0] : Fin 1 → Fin S2048.rank)
  shapeCasts_S2048_S1x2048 : S2048.ShapeCasts S1x2048
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  reducesTo_S2048x512_S2048_d1 : S2048x512.ReducesTo [1] S2048
  shapeCasts_S512_S1x512 : S512.ShapeCasts S1x512
  transposes_S2048x512_S512x2048_1_0 : S2048x512.Transposes [1, 0] S512x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2048 : S1x1.Broadcasts S512x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .f32 = 32 ∨ (Rect.block (s := S8192x2048) S512x2048.size (cc0_transform_6 i) (hinb0_6 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S2048x512 : Shape := ⟨2, ![2048, 512]⟩
abbrev S512 : Shape := ⟨1, ![512]⟩
abbrev S2048 : Shape := ⟨1, ![2048]⟩
abbrev S1x512 : Shape := ⟨2, ![1, 512]⟩
abbrev S_ : Shape := ⟨0, ![]⟩
abbrev S8192 : Shape := ⟨1, ![8192]⟩
abbrev S8192x2048 : Shape := ⟨2, ![8192, 2048]⟩
abbrev S8192x1 : Shape := ⟨2, ![8192, 1]⟩
abbrev S1x2048 : Shape := ⟨2, ![1, 2048]⟩
abbrev S1 : Shape := ⟨1, ![1]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2048x512, .f32⟩
  | .hbm, ⟨2, _⟩ => ⟨S512, .f32⟩
  | .hbm, ⟨3, _⟩ => ⟨S2048, .f32⟩
  | .hbm, ⟨4, _⟩ => ⟨S512, .f32⟩
  | .hbm, ⟨5, _⟩ => ⟨S512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S2048x512, .f32⟩
  | .hbm, ⟨13, _⟩ => ⟨S1x512, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x2048, .f32⟩
  | .hbm, ⟨22, _⟩ => ⟨S8192x1, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S2048, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  bcast_S1x512_S2048x512_0_1 : S1x512.BroadcastsInDim S2048x512 (![0, 1] : Fin 2 → Fin S2048x512.rank)
  reducesTo_S2048x512_S2048_d1 : S2048x512.ReducesTo [1] S2048
  bcast_S8192_S8192x1_0 : S8192.BroadcastsInDim S8192x1 (![0] : Fin 1 → Fin S8192x1.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S512_S_d0 : S512.ReducesTo [0] S_
  reducesTo_S2048_S_d0 : S2048.ReducesTo [0] S_
  bcast_S_S1 : S_.BroadcastsInDim S1 (![] : Fin 0 → Fin S1.rank)
  bcast_S1_S2048_0 : S1.BroadcastsInDim S2048 (![0] : Fin 1 → Fin S2048.rank)
  dot_S8192x512_S2048x512_S8192x2048_1_1_0_0_n_n_wf : DotDims.WF S8192x512 S2048x512 S8192x2048 [1] [1] [0] [0] [] []

variable [Facts₀]

def dot_S8192x512_S2048x512_S8192x2048_1_1_0_0_n_n : DotDims S8192x512 S2048x512 S8192x2048 where
  lhsContracting := [1]
  rhsContracting := [1]
  lhsNonContracting := [0]
  rhsNonContracting := [0]
  lhsBatch := []
  rhsBatch := []
  wf := dot_S8192x512_S2048x512_S8192x2048_1_1_0_0_n_n_wf

class Facts : Prop extends Facts₀ where

variable [Facts]
-- ==== Proof.Found.lean ====
/-
  What the kernel's one region finds in the five operands the host computes before it.

  Before the region the program computes, from the log-variances lcd, the class means mu and the prior logits pl:
  the per-feature weights w = exp(−lcd), laid out as one row; the log-determinant Σ lcd, as a 1 × 1 array; the
  log-priors, the log-softmax of pl (pl minus its maximum, minus the logarithm of the sum of the exponentials of
  that difference), as one row; the per-class weighted squared norms 0 + Σ_d (mu·mu)(c,d)·w(d), as one row; and the
  class means transposed to features × classes and narrowed to the 16-bit format (no change on the extended reals).
  Each is named here as a function of the arguments, the arrays the region finds are those functions re-laid, and
  at the extended reals each array is read at an index.
-/
import proofs.«169580_j54116587929770_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Found

open Cert.KernelIdeal Cert.KernelIdeal.Gen Idealize.ShloMosaic Idealize.ShloMosaic.TcCoe Idealize.SL.Sem
  Idealize.ShloMosaic.StableHlo Idealize.ShloMosaic.ValueIdx

section Terms
variable {F : FTy → Type} [FloatOps F]

/-- The per-feature weights: the exponential of the negated log-variances. -/
def weights (lcd : (⟨S512, .f32⟩ : BufTy).Contents (Elt F)) : (⟨S512, .f32⟩ : BufTy).Contents (Elt F) :=
  Host.exp (Host.negf lcd)

/-- The log-determinant: the sum of the log-variances, from zero. -/
def logDet (lcd : (⟨S512, .f32⟩ : BufTy).Contents (Elt F)) : (⟨S_, .f32⟩ : BufTy).Contents (Elt F) :=
  Host.reduceAdd lcd (constant S_ .f32 0x00000000#32) reducesTo_S512_S_d0 h_S_

/-- The prior logits less their maximum (the maximum taken from −∞, and once more against −∞). -/
def shifted (pl : (⟨S2048, .f32⟩ : BufTy).Contents (Elt F)) : (⟨S2048, .f32⟩ : BufTy).Contents (Elt F) :=
  subf pl (broadcastInDim S2048 ![0] bcast_S1_S2048_0 (broadcastInDim S1 ![] bcast_S_S1
    (maximumf (constant S_ .f32 0xFF800000#32) (Host.reduce FloatOps.maximumf pl (constant S_ .f32 0xFF800000#32) reducesTo_S2048_S_d0 h_S_))))

/-- The log-priors: the log-softmax of the prior logits. -/
def logPrior (pl : (⟨S2048, .f32⟩ : BufTy).Contents (Elt F)) : (⟨S2048, .f32⟩ : BufTy).Contents (Elt F) :=
  subf (shifted pl) (broadcastInDim S2048 ![0] bcast_S1_S2048_0 (Host.log (broadcastInDim S1 ![] bcast_S_S1
    (Host.reduceAdd (Host.exp (shifted pl)) (constant S_ .f32 0x00000000#32) reducesTo_S2048_S_d0 h_S_))))

/-- The per-class weighted squared norms of the class means. -/
def classNorms (mu : (⟨S2048x512, .f32⟩ : BufTy).Contents (Elt F)) (lcd : (⟨S512, .f32⟩ : BufTy).Contents (Elt F)) :
    (⟨S2048, .f32⟩ : BufTy).Contents (Elt F) :=
  Host.reduceAdd (mulf (mulf mu mu) (broadcastInDim S2048x512 ![0, 1] bcast_S1x512_S2048x512_0_1
    (broadcastInDim S1x512 ![1] bcast_S512_S1x512_1 (weights lcd)))) (constant S_ .f32 0x00000000#32) reducesTo_S2048x512_S2048_d1 h_S_

variable (m : (ℓ : Loc nD τ sig) → Buf (Elt F) ℓ)

/-- The weights row the region finds. -/
theorem weights_eq (c : Dev nD) : (V m c main_v12 : (⟨S1x512, .f32⟩ : BufTy).Contents (Elt F))
    = shapeCast S1x512 (weights (m ((c : Thread nD τ).loc main_arg2))) shapeCasts_S512_S1x512 := by
  dsimp only [V]
  simp only [hostOps0, hostOps0_1, hostOps0_2, List.flatten_cons, List.flatten_nil, List.append_nil, List.cons_append, List.nil_append]
  after_results
  rfl

/-- The 1 × 1 log-determinant the region finds. -/
theorem logDet_eq (c : Dev nD) : (V m c main_v3 : (⟨S1x1, .f32⟩ : BufTy).Contents (Elt F))
    = shapeCast S1x1 (logDet (m ((c : Thread nD τ).loc main_arg2))) shapeCasts_S_S1x1 := by
  dsimp only [V]
  simp only [hostOps0, hostOps0_1, hostOps0_2, List.flatten_cons, List.flatten_nil, List.append_nil, List.cons_append, List.nil_append]
  after_results
  rfl

/-- The log-prior row the region finds. -/
theorem logPrior_eq (c : Dev nD) : (V m c main_v5 : (⟨S1x2048, .f32⟩ : BufTy).Contents (Elt F))
    = shapeCast S1x2048 (logPrior (m ((c : Thread nD τ).loc main_arg3))) shapeCasts_S2048_S1x2048 := by
  dsimp only [V]
  simp only [hostOps0, hostOps0_1, hostOps0_2, List.flatten_cons, List.flatten_nil, List.append_nil, List.cons_append, List.nil_append]
  after_results
  simp only [TRef.ofBuf, TRef.toBuf, cast_eq]
  rfl

/-- The class-norm row the region finds. -/
theorem classNorms_eq (c : Dev nD) : (V m c main_v11 : (⟨S1x2048, .f32⟩ : BufTy).Contents (Elt F))
    = shapeCast S1x2048 (classNorms (m ((c : Thread nD τ).loc main_arg1)) (m ((c : Thread nD τ).loc main_arg2))) shapeCasts_S2048_S1x2048 := by
  dsimp only [V]
  simp only [hostOps0, hostOps0_1, hostOps0_2, List.flatten_cons, List.flatten_nil, List.append_nil, List.cons_append, List.nil_append]
  after_results
  rfl

/-- The transposed class means the region finds. -/
theorem meansT_eq (c : Dev nD) : (V m c main_v14 : (⟨S512x2048, .bf16⟩ : BufTy).Contents (Elt F))
    = truncf .bf16 (transpose S512x2048 [1, 0] (m ((c : Thread nD τ).loc main_arg1)) transposes_S2048x512_S512x2048_1_0) bitsLt_bf16_f32 := by
  dsimp only [V]
  simp only [hostOps0, hostOps0_1, hostOps0_2, List.flatten_cons, List.flatten_nil, List.append_nil, List.cons_append, List.nil_append]
  after_results

end Terms

/-! ## Read at an index, on the extended reals -/

variable (m : (ℓ : Loc nD τ sig) → Buf (Elt Ideal) ℓ)

theorem weights_at (c : Dev nD) (d : Fin 512) :
    (V m c main_v12 : (⟨S1x512, .f32⟩ : BufTy).Contents (Elt Ideal)) (ix2 (0 : Fin 1) d) = weights (m ((c : Thread nD τ).loc main_arg2)) (ix1 d) := by
  rw [weights_eq]
  exact shapeCast_a_1a_apply _ _ 0 d

theorem logPrior_at (c : Dev nD) (q : Fin 2048) :
    (V m c main_v5 : (⟨S1x2048, .f32⟩ : BufTy).Contents (Elt Ideal)) (ix2 (0 : Fin 1) q) = logPrior (m ((c : Thread nD τ).loc main_arg3)) (ix1 q) := by
  rw [logPrior_eq]
  exact shapeCast_a_1a_apply _ _ 0 q

theorem classNorms_at (c : Dev nD) (q : Fin 2048) :
    (V m c main_v11 : (⟨S1x2048, .f32⟩ : BufTy).Contents (Elt Ideal)) (ix2 (0 : Fin 1) q)
      = classNorms (m ((c : Thread nD τ).loc main_arg1)) (m ((c : Thread nD τ).loc main_arg2)) (ix1 q) := by
  rw [classNorms_eq]
  exact shapeCast_a_1a_apply _ _ 0 q

theorem logDet_at (c : Dev nD) :
    (V m c main_v3 : (⟨S1x1, .f32⟩ : BufTy).Contents (Elt Ideal)) (ix2 (0 : Fin 1) (0 : Fin 1)) = logDet (m ((c : Thread nD τ).loc main_arg2)) ix0 := by
  rw [logDet_eq]
  unfold shapeCast
  exact congrArg _ (funext fun a => a.elim0)

theorem meansT_at (c : Dev nD) (d : Fin 512) (q : Fin 2048) :
    (V m c main_v14 : (⟨S512x2048, .bf16⟩ : BufTy).Contents (Elt Ideal)) (ix2 d q) = m ((c : Thread nD τ).loc main_arg1) (ix2 q d) := by
  rw [meansT_eq]
  exact transpose_ix2_apply (m ((c : Thread nD τ).loc main_arg1)) transposes_S2048x512_S512x2048_1_0 d q

end Cert.KernelIdeal.Found

end
-- ==== Proof.Tile.lean ====
/-
  The arithmetic of one tile: what the kernel body stores at row p and class q of a 512 × 2048 output tile, as a
  function of the tile's six operands — the 512 sample rows x, the transposed class means mT (features × classes),
  one row of per-feature weights w, one row of per-class weighted squared norms s, one row of per-class
  log-priors lp, and the log-determinant ld:

      lp(q) − ½ · ( ( (Σ_d x(p,d)·w(d)·x(p,d)) − 2 · Σ_d x(p,d)·w(d)·mT(d,q) ) + s(q) + ld ).

  Everything but two operations is pointwise and reads through the index. The row sum is a lane reduction over
  the feature axis, a plain finite sum on the extended reals. The product with the transposed means into a zero
  accumulator is the sum over the contracted feature axis of the operands' products; narrowing the left operand's
  format changes nothing on the extended reals. The broadcasts read one row (or the one entry) of their operand,
  and the row sums, kept as a column, are read back at the row.
-/
import proofs.«169580_j54116587929770_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The broadcasts -/

/-- One row of 2048 per-class values, spread over the tile's rows, reads that row at the class. -/
theorem row2048_apply (v : FVec Ideal S1x2048 .f32) (h1 : S1x2048.ShapeCasts S1x2048) (h2 : S1x2048.Broadcasts S512x2048)
    (p : Fin 512) (q : Fin 2048) : broadcastTo S512x2048 (shapeCast S1x2048 v h1) h2 (ix2 p q) = v (ix2 (0 : Fin 1) q) := by
  rw [shapeCast_self]
  exact broadcastTo_1b_ab_apply v h2 p q

/-- The single entry, spread over the whole tile, reads that entry everywhere. -/
theorem one_apply (v : FVec Ideal S1x1 .f32) (h1 : S1x1.ShapeCasts S1x1) (h2 : S1x1.Broadcasts S512x2048)
    (p : Fin 512) (q : Fin 2048) : broadcastTo S512x2048 (shapeCast S1x1 v h1) h2 (ix2 p q) = v (ix2 (0 : Fin 1) (0 : Fin 1)) := by
  rw [shapeCast_self]
  refine broadcastTo_apply v h2 (ix2 p q) (ix2 (0 : Fin 1) (0 : Fin 1)) fun ax => ?_
  match ax with
  | ⟨0, _⟩ => rfl
  | ⟨1, _⟩ => rfl

/-- A vector of 512 row values kept as a column and spread over the classes reads, at row p, the vector at p. -/
theorem column_apply (v : FVec Ideal S512 .f32) (h1 : S512.ShapeCasts S512x1) (h2 : S512x1.Broadcasts S512x2048)
    (p : Fin 512) (q : Fin 2048) : broadcastTo S512x2048 (shapeCast S512x1 v h1) h2 (ix2 p q) = v (ix1 p) := by
  refine (broadcastTo_apply (shapeCast S512x1 v h1) h2 (ix2 p q) (ix2 p (0 : Fin 1)) fun ax => ?_).trans ?_
  · match ax with
    | ⟨0, _⟩ => rfl
    | ⟨1, _⟩ => rfl
  · refine shapeCast_apply v h1 (ix2 p (0 : Fin 1)) (ix1 p) ?_
    rw [Shape.rowMajor_val_one, Shape.rowMajor_val_two]
    show p.val = p.val * 1 + 0
    omega

/-! ## The row sum -/

/-- The lane reduction over the feature axis, read at row p, is the sum over the 512 features of the row's entries. -/
theorem rowsum_apply (src : FVec Ideal S512x512 .f32) (h : S512x512.Reduces [1] S512) (hφ : FKind.Formats .f32)
    (hacc : (0x00000000#32 : BitVec 32) = 0x00000000#32) (p : Fin 512) :
    multiReduction .add [1] S512 src 0x00000000#32 h hφ hacc (ix1 p) = ∑ d : Fin 512, src (ix2 p d) := by
  refine (Ideal.multiReduction_add_single src 0x00000000#32 h hφ hacc (ix1 p)).trans ?_
  refine Finset.sum_congr rfl fun d _ => congrArg src (funext fun a => Fin.ext ?_)
  match a with
  | ⟨0, _⟩ => rfl
  | ⟨1, _⟩ => rfl

/-! ## The product with the transposed class means -/

theorem lhs_cross_0 (i : S512x2048.Idx) (k : dot_S512x512_S512x2048_S512x2048_1_0_0_1_n_n.contr.Idx) :
    (dot_S512x512_S512x2048_S512x2048_1_0_0_1_n_n.lhsIdx i k 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_cross_1 (i : S512x2048.Idx) (k : dot_S512x512_S512x2048_S512x2048_1_0_0_1_n_n.contr.Idx) :
    (dot_S512x512_S512x2048_S512x2048_1_0_0_1_n_n.lhsIdx i k 1).val = (k ⟨0, by decide⟩).val :=
  dot_S512x512_S512x2048_S512x2048_1_0_0_1_n_n.lhsIdx_val_of_single rfl i k
theorem rhs_cross_0 (i : S512x2048.Idx) (k : dot_S512x512_S512x2048_S512x2048_1_0_0_1_n_n.contr.Idx) :
    (dot_S512x512_S512x2048_S512x2048_1_0_0_1_n_n.rhsIdx i k 0).val = (k ⟨0, by decide⟩).val :=
  dot_S512x512_S512x2048_S512x2048_1_0_0_1_n_n.rhsIdx_val_of_single rfl i k
theorem rhs_cross_1 (i : S512x2048.Idx) (k : dot_S512x512_S512x2048_S512x2048_1_0_0_1_n_n.contr.Idx) :
    (dot_S512x512_S512x2048_S512x2048_1_0_0_1_n_n.rhsIdx i k 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The matrix product into a zero accumulator, read at (p, q): the sum over the 512 features of row p of the left
    operand times column q of the right one. -/
theorem cross_apply (a : FVec Ideal S512x512 .bf16) (b : FVec Ideal S512x2048 .bf16) (p : Fin 512) (q : Fin 2048) :
    matmul dot_S512x512_S512x2048_S512x2048_1_0_0_1_n_n none a b (constant S512x2048 .f32 0x00000000#32) (ix2 p q)
      = ∑ d : Fin 512, a (ix2 p d) * b (ix2 d q) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p q) ((ValueIdx.contrEquiv1 dot_S512x512_S512x2048_S512x2048_1_0_0_1_n_n 512 rfl rfl).symm k) = ix2 p k := funext fun ax => Fin.ext (by
    match ax with
    | ⟨0, _⟩ => exact lhs_cross_0 _ _
    | ⟨1, _⟩ => exact (lhs_cross_1 _ _).trans hk)
  have er : dot_S512x512_S512x2048_S512x2048_1_0_0_1_n_n.rhsIdx (ix2 p q) ((ValueIdx.contrEquiv1 dot_S512x512_S512x2048_S512x2048_1_0_0_1_n_n 512 rfl rfl).symm k) = ix2 k q := funext fun ax => Fin.ext (by
    match ax with
    | ⟨0, _⟩ => exact (rhs_cross_0 _ _).trans hk
    | ⟨1, _⟩ => exact rhs_cross_1 _ _)
  rw [el, er]

/-! ## The tile's entry -/

/-- What the body stores at row p and class q of its tile. -/
theorem entry (x : FVec Ideal S512x512 .f32) (w : FVec Ideal S1x512 .f32) (mT : FVec Ideal S512x2048 .bf16)
    (s : FVec Ideal S1x2048 .f32) (ld : FVec Ideal S1x1 .f32) (lp : FVec Ideal S1x2048 .f32) (p : Fin 512) (q : Fin 2048) :
    k0_pay1 (F := Ideal) x w mT s ld lp (ix2 p q)
      = lp (ix2 (0 : Fin 1) q) - Ideal.ofBits .f32 0x3F000000#32 *
          ((((∑ d : Fin 512, x (ix2 p d) * w (ix2 (0 : Fin 1) d) * x (ix2 p d))
              - Ideal.ofBits .f32 0x40000000#32 * ∑ d : Fin 512, x (ix2 p d) * w (ix2 (0 : Fin 1) d) * mT (ix2 d q))
            + s (ix2 (0 : Fin 1) q)) + ld (ix2 (0 : Fin 1) (0 : Fin 1))) := by
  unfold k0_pay1
  simp only [subf_apply, mulf_apply, addf_apply, broadcast_apply]
  rw [row2048_apply, row2048_apply, one_apply, column_apply, rowsum_apply, cross_apply]
  simp only [mulf_apply, truncf_apply, shapeCast_self, broadcastTo_1b_ab_apply]
  rfl

end Cert.KernelIdeal.Tile

end
-- ==== Proof.Spec.lean ====
/-
  The score of a diagonal-covariance discriminant head, as ONE function of the argument arrays, index by index.

  For a sample row n and a class c, with per-feature weights w (the inverse variances), the class's weighted
  squared norm q c, the log-determinant ld and the class's log-prior lp c:

      score (n, c) = lp c − ½ · ( ( (Σ_d z(n,d)·w(d)·z(n,d)) − 2 · Σ_d z(n,d)·w(d)·mu(c,d) ) + q c  +  ld ).

  The bracket is the expanded Mahalanobis distance Σ_d (z(n,d) − mu(c,d))² · w(d), kept in the grouping both
  programs use: on the extended reals a difference of infinite terms is not a square's expansion, so nothing is
  regrouped. The two literals are the float words of 2 and ½, the same word on both sides, never evaluated.

  The one place the two programs differ is the order of the factors in the sample's own weighted norm:
  (z·w)·z against (z·z)·w, and a sum started from the additive identity against a bare sum. Multiplication on
  the extended reals is commutative and associative (with 0·∞ = 0), so the two agree at every input, finite or
  not: `weighted_norm_comm`.
-/
import Idealize.ShloMosaic.PureOps.Ideal
import Idealize.ShloMosaic.Lib.ValueIdx
import Mathlib.Data.EReal.Inv

noncomputable section

namespace Cert.Lda

open Idealize.ShloMosaic Idealize.ShloMosaic.ValueIdx

/-- The score at sample row `j 0` and class `j 1`. -/
def score (z : (⟨2, ![8192, 512]⟩ : Shape).Idx → EReal) (mu : (⟨2, ![2048, 512]⟩ : Shape).Idx → EReal)
    (w : (⟨1, ![512]⟩ : Shape).Idx → EReal) (q : (⟨1, ![2048]⟩ : Shape).Idx → EReal) (ld : EReal)
    (lp : (⟨1, ![2048]⟩ : Shape).Idx → EReal) : (⟨2, ![8192, 2048]⟩ : Shape).Idx → EReal := fun j =>
  lp (ix1 (j 1)) - Ideal.ofBits .f32 0x3F000000#32 *
    ((((∑ d : Fin 512, z (ix2 (j 0) d) * w (ix1 d) * z (ix2 (j 0) d))
        - Ideal.ofBits .f32 0x40000000#32 * ∑ d : Fin 512, z (ix2 (j 0) d) * w (ix1 d) * mu (ix2 (j 1) d))
      + q (ix1 (j 1))) + ld)

/-- A weighted squared norm does not depend on where the weight stands among the factors, nor on starting the
    sum from zero. -/
theorem weighted_norm_comm {ι : Type} [Fintype ι] (a w : ι → EReal) :
    0 + ∑ d, a d * a d * w d = ∑ d, a d * w d * a d := by
  rw [zero_add]
  exact Finset.sum_congr rfl fun d _ => mul_right_comm _ _ _

end Cert.Lda

end
-- ==== Proof.KernelScore.lean ====
/-
  The kernel's output array is the score.

  The grid has 16 points; point t works on sample rows 512·t … 512·t + 511. Its sample window is block t of the
  samples along the rows; the five other input windows are whole arrays, the same at every point; its output
  window is block t of the output along the rows, all 2048 classes wide. So row p of a tile is sample row
  512·t + p, the block reads land where the output's rectangle says, and with the tile's arithmetic
  (`Tile.entry`) and the five host-computed operands read at an index (`Found`), what point t writes back is
  block t of the score. The 16 blocks tile the output (row r lies in block r / 512), so the array the run leaves is
  the score everywhere.
-/
import proofs.«169580_j54116587929770_1_alg».proof.Proof.Gen.KernelIdeal.Value
import proofs.«169580_j54116587929770_1_alg».proof.Proof.Found
import proofs.«169580_j54116587929770_1_alg».proof.Proof.Tile
import proofs.«169580_j54116587929770_1_alg».proof.Proof.Spec

noncomputable section

namespace Cert.KernelIdeal.Score

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The score of device c's arguments, with the weights, class norms, log-determinant and log-priors the host
    prefix computes from them. -/
abbrev scoreOf (c : Dev nD) : S8192x2048.Idx → EReal :=
  Cert.Lda.score (m ((c : Thread nD τ).loc main_arg0)) (m ((c : Thread nD τ).loc main_arg1))
    (Found.weights (m ((c : Thread nD τ).loc main_arg2)))
    (Found.classNorms (m ((c : Thread nD τ).loc main_arg1)) (m ((c : Thread nD τ).loc main_arg2)))
    (Found.logDet (m ((c : Thread nD τ).loc main_arg2)) ix0)
    (Found.logPrior (m ((c : Thread nD τ).loc main_arg3)))

/-! ## The grid -/

theorem origin : (![0, 0] : Fin 2 → Nat) = fun _ => 0 := funext fun a => by fin_cases a <;> rfl

theorem point_lt (t : Fin cfg0.N) : t.val < 16 := lt_of_lt_of_eq t.isLt N_0

/-- The block index maps over the grid: the sample and output windows advance one block of rows per point, every
    other window stays at its one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The sample row that row p of point t's tile is. -/
def row (t : Fin cfg0.N) (p : Fin 512) : Fin 8192 :=
  ⟨t.val * 512 + p.val, by have := point_lt t; have := p.isLt; omega⟩

/-! ## Where the blocks lie -/

theorem emb_out (t : Fin cfg0.N) (p : Fin 512) (q : Fin 2048) :
    ((cfg0.win 6).blk t).view.emb (ix2 p q) = ix2 (row t p) q := by
  obtain ⟨-, -, -, -, -, -, -, -, -, -, -, -, e0, e1⟩ := block_index t
  funext a; apply Fin.ext
  match a with
  | ⟨0, _⟩ => show win0_6.index t (0 : Fin 2) * 512 + 1 * p.val = t.val * 512 + p.val; omega
  | ⟨1, _⟩ => show win0_6.index t (1 : Fin 2) * 2048 + 1 * q.val = q.val; omega

theorem emb_samples (t : Fin cfg0.N) (p d : Fin 512) :
    ((cfg0.win 0).blk t).view.emb (ix2 p d) = ix2 (row t p) d := by
  obtain ⟨e0, e1, -⟩ := block_index t
  funext a; apply Fin.ext
  match a with
  | ⟨0, _⟩ => show win0_0.index t (0 : Fin 2) * 512 + 1 * p.val = t.val * 512 + p.val; omega
  | ⟨1, _⟩ => show win0_0.index t (1 : Fin 2) * 512 + 1 * d.val = d.val; omega

theorem emb_meansT (t : Fin cfg0.N) (d : Fin 512) (q : Fin 2048) :
    ((cfg0.win 1).blk t).view.emb (ix2 d q) = ix2 d q := by
  obtain ⟨-, -, e0, e1, -⟩ := block_index t
  funext a; apply Fin.ext
  match a with
  | ⟨0, _⟩ => show win0_1.index t (0 : Fin 2) * 512 + 1 * d.val = d.val; omega
  | ⟨1, _⟩ => show win0_1.index t (1 : Fin 2) * 2048 + 1 * q.val = q.val; omega

theorem emb_weights (t : Fin cfg0.N) (d : Fin 512) :
    ((cfg0.win 2).blk t).view.emb (ix2 (0 : Fin 1) d) = ix2 (0 : Fin 1) d := by
  obtain ⟨-, -, -, -, e0, e1, -⟩ := block_index t
  funext a; apply Fin.ext
  match a with
  | ⟨0, _⟩ => show win0_2.index t (0 : Fin 2) * 1 + 1 * 0 = 0; omega
  | ⟨1, _⟩ => show win0_2.index t (1 : Fin 2) * 512 + 1 * d.val = d.val; omega

theorem emb_classNorms (t : Fin cfg0.N) (q : Fin 2048) :
    ((cfg0.win 3).blk t).view.emb (ix2 (0 : Fin 1) q) = ix2 (0 : Fin 1) q := by
  obtain ⟨-, -, -, -, -, -, e0, e1, -⟩ := block_index t
  funext a; apply Fin.ext
  match a with
  | ⟨0, _⟩ => show win0_3.index t (0 : Fin 2) * 1 + 1 * 0 = 0; omega
  | ⟨1, _⟩ => show win0_3.index t (1 : Fin 2) * 2048 + 1 * q.val = q.val; omega

theorem emb_logPrior (t : Fin cfg0.N) (q : Fin 2048) :
    ((cfg0.win 4).blk t).view.emb (ix2 (0 : Fin 1) q) = ix2 (0 : Fin 1) q := by
  obtain ⟨-, -, -, -, -, -, -, -, e0, e1, -⟩ := block_index t
  funext a; apply Fin.ext
  match a with
  | ⟨0, _⟩ => show win0_4.index t (0 : Fin 2) * 1 + 1 * 0 = 0; omega
  | ⟨1, _⟩ => show win0_4.index t (1 : Fin 2) * 2048 + 1 * q.val = q.val; omega

theorem emb_logDet (t : Fin cfg0.N) :
    ((cfg0.win 5).blk t).view.emb (ix2 (0 : Fin 1) (0 : Fin 1)) = ix2 (0 : Fin 1) (0 : Fin 1) := by
  obtain ⟨-, -, -, -, -, -, -, -, -, -, e0, e1, -⟩ := block_index t
  funext a; apply Fin.ext
  match a with
  | ⟨0, _⟩ => show win0_5.index t (0 : Fin 2) * 1 + 1 * 0 = 0; omega
  | ⟨1, _⟩ => show win0_5.index t (1 : Fin 2) * 1 + 1 * 0 = 0; omega

/-! ## The input blocks at an index -/

theorem samples_at (c : Dev nD) (t : Fin cfg0.N) (p d : Fin 512) :
    iblk m c 0 t (ix2 p d) = m ((c : Thread nD τ).loc main_arg0) (ix2 (row t p) d) := by
  show V m c main_arg0 (((cfg0.win 0).blk t).view.emb (ix2 p d)) = _
  rw [V_main_arg0, emb_samples]

theorem meansT_at (c : Dev nD) (t : Fin cfg0.N) (d : Fin 512) (q : Fin 2048) :
    iblk m c 1 t (ix2 d q) = m ((c : Thread nD τ).loc main_arg1) (ix2 q d) := by
  show V m c main_v14 (((cfg0.win 1).blk t).view.emb (ix2 d q)) = _
  rw [emb_meansT]
  exact Found.meansT_at m c d q

theorem weights_at (c : Dev nD) (t : Fin cfg0.N) (d : Fin 512) :
    iblk m c 2 t (ix2 (0 : Fin 1) d) = Found.weights (m ((c : Thread nD τ).loc main_arg2)) (ix1 d) := by
  show V m c main_v12 (((cfg0.win 2).blk t).view.emb (ix2 (0 : Fin 1) d)) = _
  rw [emb_weights]
  exact Found.weights_at m c d

theorem classNorms_at (c : Dev nD) (t : Fin cfg0.N) (q : Fin 2048) :
    iblk m c 3 t (ix2 (0 : Fin 1) q)
      = Found.classNorms (m ((c : Thread nD τ).loc main_arg1)) (m ((c : Thread nD τ).loc main_arg2)) (ix1 q) := by
  show V m c main_v11 (((cfg0.win 3).blk t).view.emb (ix2 (0 : Fin 1) q)) = _
  rw [emb_classNorms]
  exact Found.classNorms_at m c q

theorem logPrior_at (c : Dev nD) (t : Fin cfg0.N) (q : Fin 2048) :
    iblk m c 4 t (ix2 (0 : Fin 1) q) = Found.logPrior (m ((c : Thread nD τ).loc main_arg3)) (ix1 q) := by
  show V m c main_v5 (((cfg0.win 4).blk t).view.emb (ix2 (0 : Fin 1) q)) = _
  rw [emb_logPrior]
  exact Found.logPrior_at m c q

theorem logDet_at (c : Dev nD) (t : Fin cfg0.N) :
    iblk m c 5 t (ix2 (0 : Fin 1) (0 : Fin 1)) = Found.logDet (m ((c : Thread nD τ).loc main_arg2)) ix0 := by
  show V m c main_v3 (((cfg0.win 5).blk t).view.emb (ix2 (0 : Fin 1) (0 : Fin 1))) = _
  rw [emb_logDet]
  exact Found.logDet_at m c

/-! ## What a point writes back -/

/-- Point t writes back block t of the score. -/
theorem flushed_eq (c : Dev nD) (t : Fin cfg0.N) :
    (dats m 0 c).flushed 6 t = ((cfg0.win 6).blk t).view.read (Elt Ideal) (scoreOf m c) := by
  rw [flushed6]
  unfold out0_6
  rw [View.canon_unit_zero origin]
  simp only [View.ld_unit_zero (S := S512x512) origin, View.ld_unit_zero (S := S1x512) origin,
    View.ld_unit_zero (S := S512x2048) origin, View.ld_unit_zero (S := S1x2048) origin, View.ld_unit_zero (S := S1x1) origin]
  funext j
  obtain ⟨p, q, rfl⟩ : ∃ (p : Fin 512) (q : Fin 2048), j = ix2 p q := ⟨j 0, j 1, eq_ix2 j⟩
  show k0_pay1 (F := Ideal) (iblk m c 0 t) (iblk m c 2 t) (iblk m c 1 t) (iblk m c 3 t) (iblk m c 5 t) (iblk m c 4 t) (ix2 p q)
    = scoreOf m c (((cfg0.win 6).blk t).view.emb (ix2 p q))
  refine (Tile.entry (iblk m c 0 t) (iblk m c 2 t) (iblk m c 1 t) (iblk m c 3 t) (iblk m c 5 t) (iblk m c 4 t) p q).trans ?_
  have hx : ∀ d : Fin 512, iblk m c 0 t (ix2 p d) = m ((c : Thread nD τ).loc main_arg0) (ix2 (row t p) d) :=
    fun d => samples_at m c t p d
  have hm : ∀ d : Fin 512, iblk m c 1 t (ix2 d q) = m ((c : Thread nD τ).loc main_arg1) (ix2 q d) :=
    fun d => meansT_at m c t d q
  have hw : ∀ d : Fin 512, iblk m c 2 t (ix2 (0 : Fin 1) d) = Found.weights (m ((c : Thread nD τ).loc main_arg2)) (ix1 d) :=
    fun d => weights_at m c t d
  rw [emb_out, logPrior_at, classNorms_at, logDet_at]
  simp only [hx, hm, hw]
  rfl

/-! ## The blocks tile the output -/

theorem mem_blk (t : Fin cfg0.N) (i : S8192x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v15).slice (win0_6.rect t)).set ↔ _
  rw [View.set_slice_whole, Rect.mem_set_unit]
  exact Iff.rfl

/-- Every index of the output lies in the block of the point its row falls to. -/
theorem cover (i : S8192x2048.Idx) :
    ∃ t : Fin cfg0.N, (cfg0.win 6).flush t = true ∧ i ∈ ((cfg0.win 6).blk t).view.set := by
  have h0 : (i 0).val < 8192 := (i 0).isLt
  have h1 : (i 1).val < 2048 := (i 1).isLt
  have hN : cfg0.N = 16 := N_0
  have ht : (i 0).val / 512 < cfg0.N := by rw [hN]; omega
  obtain ⟨-, -, -, -, -, -, -, -, -, -, -, -, e0, e1⟩ := block_index ⟨(i 0).val / 512, ht⟩
  refine ⟨⟨(i 0).val / 512, ht⟩, flush0_6 _, ?_⟩
  rw [mem_blk]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_6.index ⟨(i 0).val / 512, ht⟩ (1 : Fin 2) * 2048 ≤ (i 1).val ∧ (i 1).val < win0_6.index ⟨(i 0).val / 512, ht⟩ (1 : Fin 2) * 2048 + 2048
    rw [e1]
    omega

/-- The output array after the run is the score. -/
theorem final (c : Dev nD) : (dats m 0 c).arrAt 6 cfg0.N = scoreOf m c :=
  (dats m 0 c).arrAt_eq_of_cover 6 (scoreOf m c) (fun t _ => flushed_eq m c t) cover

/-- Every weakly fair execution of the kernel's program ends with the output array at the score of the arguments,
    the arguments unchanged. -/
theorem run : θ_run defs (onTc (τ := τ) (main (F := Ideal))) ⟨m, fun _ => 0, ρ⟩ fun r => ∀ c : Dev nD,
      r.2.mem ((c : Thread nD τ).loc main_v15) = scoreOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Score

end
-- ==== Proof.RefScore.lean ====
/-
  The reference program computes the score.

  Read one operation at a time, the reference's result at sample row n and class c is

      lp(c) − ½ · ( ( (0 + Σ_d (z(n,d)·z(n,d))·w(d)) − 2 · Σ_d (z(n,d)·w(d))·mu(c,d) ) + q(c) + ld ),

  with w the exponential of the negated log-variances, q(c) = 0 + Σ_d (mu(c,d)·mu(c,d))·w(d), ld the sum of the
  log-variances and lp the log-softmax of the prior logits: every broadcast reads its operand at the coordinate it
  keeps, the contraction of the weighted samples with the class means is a sum over the feature axis, and each
  host sum is its initial value plus the sum over the reduced axis. Against the score only the sample's own
  weighted norm is arranged differently (`Cert.Lda.weighted_norm_comm`).
-/
import proofs.«169580_j54116587929770_1_alg».proof.Proof.RefRead
import proofs.«169580_j54116587929770_1_alg».proof.Proof.Spec

noncomputable section

namespace Cert.ReferenceIdeal.Score

open Cert.ReferenceIdeal Cert.ReferenceIdeal.RunRead Idealize.ShloMosaic Idealize.ShloMosaic.ValueIdx

/-- The reference's result is the score of its arguments, of the weights, class norms and log-priors it computes
    from them, and of its log-determinant. -/
theorem result_eq (z : FVec Ideal S8192x512 .f32) (mu : FVec Ideal S2048x512 .f32) (lcd : FVec Ideal S512 .f32)
    (pl : FVec Ideal S2048 .f32) :
    val_main_v32 (F := Ideal) z mu lcd pl
      = Cert.Lda.score z mu (val_main_v1 (F := Ideal) lcd) (val_main_v11 (F := Ideal) mu lcd)
          (val_main_v24 (F := Ideal) lcd ix0) (val_main_v25 (F := Ideal) pl) := by
  funext j
  obtain ⟨n, c, rfl⟩ : ∃ (n : Fin 8192) (c : Fin 2048), j = ix2 n c := ⟨j 0, j 1, eq_ix2 j⟩
  -- the composed index maps of the broadcasts, the row sums and the contraction, by coordinates
  have eLp : idx_main_v26 (idx_main_v31 (ix2 n c)) = ix1 c := funext fun a => Fin.ext (by match a with | ⟨0, _⟩ => rfl)
  have eQ : idx_main_v21 (idx_main_v22 (ix2 n c)) = ix1 c := funext fun a => Fin.ext (by match a with | ⟨0, _⟩ => rfl)
  have eRow : ∀ k : Fin 512, idx_main_v6 (idx_main_v16 (idx_main_v19 (ix2 n c))) k = ix2 n k :=
    fun k => funext fun a => Fin.ext (by match a with | ⟨0, _⟩ => rfl | ⟨1, _⟩ => rfl)
  have eW : ∀ k : Fin 512, idx_main_v3 (idx_main_v4 (ix2 n k)) = ix1 k :=
    fun k => funext fun a => Fin.ext (by match a with | ⟨0, _⟩ => rfl)
  have eL : ∀ k : Fin 512, lidx_main_v15 (ix2 n c) k = ix2 n k :=
    fun k => funext fun a => Fin.ext (by match a with | ⟨0, _⟩ => rfl | ⟨1, _⟩ => rfl)
  have eR : ∀ k : Fin 512, ridx_main_v15 (ix2 n c) k = ix2 c k :=
    fun k => funext fun a => Fin.ext (by match a with | ⟨0, _⟩ => rfl | ⟨1, _⟩ => rfl)
  have eW' : ∀ k : Fin 512, idx_main_v12 (idx_main_v13 (ix2 n k)) = ix1 k :=
    fun k => funext fun a => Fin.ext (by match a with | ⟨0, _⟩ => rfl)
  rw [val_main_v32_apply, val_main_v31_apply, val_main_v26_apply, eLp, val_main_v30_apply, val_main_v29_apply,
    val_main_cst_3_apply, val_main_v28_apply, val_main_v27_apply, val_main_v23_apply, val_main_v22_apply,
    val_main_v21_apply, eQ, val_main_v20_apply, val_main_v19_apply, val_main_v16_apply, val_main_v6_apply,
    val_main_cst_apply, val_main_v18_apply, val_main_v17_apply, val_main_cst_1_apply, val_main_v15_apply]
  simp only [eRow, eL, eR, val_main_v5_apply, val_main_v2_apply, val_main_v4_apply, val_main_v3_apply, eW,
    val_main_v14_apply, val_main_v13_apply, val_main_v12_apply, eW', Ideal.subf_def, Ideal.mulf_def, Ideal.addf_def,
    Ideal.ofBits_def, Ideal.ofBits_zero_f32]
  unfold Cert.Lda.score
  rw [Cert.Lda.weighted_norm_comm (fun d : Fin 512 => z (ix2 n d)) (fun d : Fin 512 => val_main_v1 (F := Ideal) lcd (ix1 d))]

end Cert.ReferenceIdeal.Score

end
-- ==== Proof.lean ====
/-
  The diagonal-covariance discriminant head: the tiled kernel against its array-level reference.

  For samples z (8192 × 512), class means mu (2048 × 512), log-variances lcd (512) and prior logits pl (2048),
  both programs compute, for sample n and class c,

      log_prior(c) − ½ · ( Σ_d (z(n,d) − mu(c,d))² / var(d)  +  Σ_d lcd(d) ),

  with the squared distance expanded as  Σ_d z²·w − 2·Σ_d (z·w)·mu + Σ_d mu²·w,  w = exp(−lcd) = 1 / var.
  The kernel computes w, the log-determinant, the log-priors and the class norms Σ_d mu²·w on the host, then in 16
  tiles of 512 sample rows forms the sample norms as a lane sum of (z·w)·z and the cross term as a matrix product
  of z·w with the transposed means, and combines. The reference does the same on whole arrays with the sample
  norms as a host sum of (z·z)·w.

  On the extended reals a change of float format is the identity, a matrix product into a zero accumulator and a
  contraction are the same finite sum, and the only rearrangement between the two sides is the place of the weight
  among the three factors of the sample norm, which commutativity and associativity of the product settle at
  every input. So the claim needs nothing of the inputs' finiteness: the two runs end at ONE function of the
  arguments, `Cert.Lda.score`, of which the host-side quantities are the same terms in both programs.

  The three frames are the generated ones (the reference's: its run with the result dropped); the kernel's
  idealization rewrote no operation, so there is nothing to preserve.
-/
import proofs.«169580_j54116587929770_1_alg».proof.Defs
import proofs.«169580_j54116587929770_1_alg».proof.Proof.Gen.Kernel
import proofs.«169580_j54116587929770_1_alg».proof.Proof.Gen.Kernel.Frame
import proofs.«169580_j54116587929770_1_alg».proof.Proof.Gen.KernelIdeal
import proofs.«169580_j54116587929770_1_alg».proof.Proof.Gen.KernelIdeal.Frame
import proofs.«169580_j54116587929770_1_alg».proof.Proof.Gen.ReferenceIdeal
import proofs.«169580_j54116587929770_1_alg».proof.Proof.Gen.Pre_finite_inputs
import proofs.«169580_j54116587929770_1_alg».proof.Proof.KernelScore
import proofs.«169580_j54116587929770_1_alg».proof.Proof.RefScore
import Idealize.ShloMosaic.Adequacy
import Idealize.ShloMosaic.Init

noncomputable section

namespace Cert.Proof

open Idealize.ShloMosaic Idealize.ShloMosaic.TcCoe Idealize.SL.Sem Idealize.ShloMosaic.ValueIdx

/-! ## The host-side quantities are the same in both programs -/

section Same
variable {F : FTy → Type} [FloatOps F]

/-- Both programs take the weights as the exponential of the negated log-variances. -/
theorem weights_same (lcd : (⟨Cert.KernelIdeal.S512, .f32⟩ : BufTy).Contents (Elt F)) :
    Cert.ReferenceIdeal.RunRead.val_main_v1 (F := F) lcd = Cert.KernelIdeal.Found.weights lcd := rfl

/-- Both take the log-determinant as the sum of the log-variances from zero. -/
theorem logDet_same (lcd : (⟨Cert.KernelIdeal.S512, .f32⟩ : BufTy).Contents (Elt F)) :
    Cert.ReferenceIdeal.RunRead.val_main_v24 (F := F) lcd = Cert.KernelIdeal.Found.logDet lcd := rfl

/-- Both take the class norms as the row sums, from zero, of the squared means times the weights. -/
theorem classNorms_same (mu : (⟨Cert.KernelIdeal.S2048x512, .f32⟩ : BufTy).Contents (Elt F))
    (lcd : (⟨Cert.KernelIdeal.S512, .f32⟩ : BufTy).Contents (Elt F)) :
    Cert.ReferenceIdeal.RunRead.val_main_v11 (F := F) mu lcd = Cert.KernelIdeal.Found.classNorms mu lcd := rfl

/-- Both take the log-priors by the same log-softmax. -/
theorem logPrior_same (pl : (⟨Cert.KernelIdeal.S2048, .f32⟩ : BufTy).Contents (Elt F)) :
    Cert.ReferenceIdeal.RunRead.val_main_v25 (F := F) pl = Cert.KernelIdeal.Found.logPrior pl := rfl

end Same

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunValue.run (F := Ideal) m ρ)

/-- From memories that agree on the four arguments, the kernel's program ends with its output at the score of the
    arguments (`Score.run`), and the reference with its result at its composed term, which is the score of the same
    arguments (`Score.result_eq`) once the host-side quantities are recognised as the kernel's. -/
theorem algebraic : Cert.algebraic_KernelIdeal_ReferenceIdeal := by
  intro m ρ m' ρ' _ hagree
  refine ⟨fun c => Cert.KernelIdeal.Score.scoreOf m c, Cert.KernelIdeal.Score.run m ρ, ?_⟩
  refine (θ_run Cert.ReferenceIdeal.defs _ _).mono (fun _ h c => ⟨(h c).1.trans ?_, (h c).2⟩)
    (Cert.ReferenceIdeal.RunValue.run (F := Ideal) m' ρ')
  refine (Cert.ReferenceIdeal.RunRead.val_main_v32_eq (F := Ideal) _ _ _ _).trans ?_
  rw [Cert.ReferenceIdeal.Score.result_eq, (hagree c).1, (hagree c).2.1, (hagree c).2.2.1, (hagree c).2.2.2,
    weights_same, logDet_same, classNorms_same, logPrior_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
